-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S3200 : Shape := ⟨1, ![3200]⟩
abbrev S1x3200 : Shape := ⟨2, ![1, 3200]⟩
abbrev S512x3200 : Shape := ⟨2, ![512, 3200]⟩
abbrev S512x1 : Shape := ⟨2, ![512, 1]⟩
abbrev S512 : Shape := ⟨1, ![512]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S3200, .i32⟩
  | .hbm, ⟨4, _⟩ => ⟨S1x3200, .i32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x1, .i32⟩
  | .local _ .vmem, ⟨3, _⟩ => ⟨S512x1, .i32⟩
  | .local _ .vmem, ⟨4, _⟩ => ⟨S1x3200, .i32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v31 : BitVec 1 := Scalar.cmpi .eq arg1 c9_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x3200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8192_S8192x1_0 : S8192.BroadcastsInDim S8192x1 (![0] : Fin 1 → Fin S8192x1.rank)
  bcast_S3200_S1x3200_1 : S3200.BroadcastsInDim S1x3200 (![1] : Fin 1 → Fin S1x3200.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S512x1_S512x3200 : S512x1.Broadcasts S512x3200
  broadcasts_S1x3200_S512x3200 : S1x3200.Broadcasts S512x3200
  reduces_S512x3200_S512 : S512x3200.Reduces [1] S512
  shapeCasts_S512_S512x1 : S512.ShapeCasts S512x1
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x3200.size a
  hwx0_2 : ∀ i : grid0.Coords, EltTy.bits .i32 = 32 ∨ (Rect.block (s := S1x3200) S1x3200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x32000, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_cst_3 : Ref sig .tc := ⟨.hbm, 39, rfl⟩
abbrev main_v12 : Ref sig .tc := ⟨.hbm, 40, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  reducesTo_S8192_S_d0 : S8192.ReducesTo [0] S_
  reducesTo_S8192x32000_S8192_d1 : S8192x32000.ReducesTo [1] S8192
  bcast_S_S8192 : S_.BroadcastsInDim S8192 (![] : Fin 0 → Fin S8192.rank)
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.KernelPieces.lean ====
/-
  What one grid step leaves behind, case by case, as the body's arithmetic of what it found.

  The first step of a row block (case A) resets both running sums to zero and then adds the block's contribution; a middle
  step (case B) adds to what the step before left; the last step (case C) adds and then stores the row losses,
  log (first sum + ε) − second sum, into the output block.
-/
import proofs.«428869_j55379308315499_3_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.ValueIdx

namespace Cert.KernelIdeal.Loss

open Cert.KernelIdeal Cert.KernelIdeal.Gen

variable {F : FTy → Type} [FloatOps F]

theorem hz : (![0, 0] : Fin 2 → Nat) = fun _ => 0 := funext fun a => by fin_cases a <;> rfl

theorem expSum_A (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S1x3200 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 : Vec F S512x3200 .f32) (x1 : Vec F S512x1 .i32) (x2 : Vec F S1x3200 .i32) :
    sout0_A_0 c i arg2 harg2 arg3 harg3 arg4 harg4 arg5 harg5 arg6 harg6 arg7 harg7 hc0 hc1 x0 x1 x2 = k0_pay4 x0 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  try sl_unfold_words
  rw [View.canon_cons_unit_zero (S := S512x1) hz, View.readCov_unit_zero (S := S512x1) _ hz]
  simp only [View.readAt_eq_ld, harg2.read_unread, harg3.read_unread, harg4.read_unread, harg6.read_unread, harg7.read_unread, View.ld_unit_zero (S := S512x3200) hz, View.ld_unit_zero (S := S512x1) hz, View.ld_unit_zero (S := S1x3200) hz, View.readCov_unit_zero (S := S512x1) _ hz]

theorem pickSum_A (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S1x3200 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i) (x0 : Vec F S512x3200 .f32) (x1 : Vec F S512x1 .i32) (x2 : Vec F S1x3200 .i32) :
    sout0_A_1 c i arg2 harg2 arg3 harg3 arg4 harg4 arg5 harg5 arg6 harg6 arg7 harg7 hc0 hc1 x0 x1 x2 = k0_pay5 i x0 x2 x1 (k0_pay3 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  try sl_unfold_words
  rw [View.canon_cons_unit_zero (S := S512x1) hz, View.readCov_unit_zero (S := S512x1) _ hz]
  simp only [View.readAt_eq_ld, harg2.read_unread, harg3.read_unread, harg4.read_unread, harg6.read_unread, harg7.read_unread, View.ld_unit_zero (S := S512x3200) hz, View.ld_unit_zero (S := S512x1) hz, View.ld_unit_zero (S := S1x3200) hz, View.readCov_unit_zero (S := S512x1) _ hz]

theorem expSum_B (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S1x3200 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 : Vec F S512x3200 .f32) (x1 : Vec F S512x1 .i32) (x2 : Vec F S1x3200 .i32) (xs0 : Vec F S512x1 .f32) (xs1 : Vec F S512x1 .f32) :
    sout0_B_0 c i arg2 harg2 arg3 harg3 arg4 harg4 arg5 harg5 arg6 harg6 arg7 harg7 hc0 hc1 x0 x1 x2 xs0 xs1 = k0_pay4 x0 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  try sl_unfold_words
  rw [View.canon_unit_zero hz]
  simp only [View.readAt_eq_ld, harg2.read_unread, harg3.read_unread, harg4.read_unread, harg6.read_unread, harg7.read_unread, View.ld_unit_zero (S := S512x3200) hz, View.ld_unit_zero (S := S512x1) hz, View.ld_unit_zero (S := S1x3200) hz, View.readCov_unit_zero (S := S512x1) _ hz]

theorem pickSum_B (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S1x3200 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i) (x0 : Vec F S512x3200 .f32) (x1 : Vec F S512x1 .i32) (x2 : Vec F S1x3200 .i32) (xs0 : Vec F S512x1 .f32) (xs1 : Vec F S512x1 .f32) :
    sout0_B_1 c i arg2 harg2 arg3 harg3 arg4 harg4 arg5 harg5 arg6 harg6 arg7 harg7 hc0 hc1 x0 x1 x2 xs0 xs1 = k0_pay5 i x0 x2 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  try sl_unfold_words
  rw [View.canon_unit_zero hz]
  simp only [View.readAt_eq_ld, harg2.read_unread, harg3.read_unread, harg4.read_unread, harg6.read_unread, harg7.read_unread, View.ld_unit_zero (S := S512x3200) hz, View.ld_unit_zero (S := S512x1) hz, View.ld_unit_zero (S := S1x3200) hz, View.readCov_unit_zero (S := S512x1) _ hz]

theorem expSum_C (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S1x3200 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 : Vec F S512x3200 .f32) (x1 : Vec F S512x1 .i32) (x2 : Vec F S1x3200 .i32) (xs0 : Vec F S512x1 .f32) (xs1 : Vec F S512x1 .f32) :
    sout0_C_0 c i arg2 harg2 arg3 harg3 arg4 harg4 arg5 harg5 arg6 harg6 arg7 harg7 hc0 hc1 x0 x1 x2 xs0 xs1 = k0_pay4 x0 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz]
  simp only [View.readAt_eq_ld, harg2.read_unread, harg3.read_unread, harg4.read_unread, harg6.read_unread, harg7.read_unread, View.ld_unit_zero (S := S512x3200) hz, View.ld_unit_zero (S := S512x1) hz, View.ld_unit_zero (S := S1x3200) hz, View.readCov_unit_zero (S := S512x1) _ hz]

theorem pickSum_C (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S1x3200 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 : Vec F S512x3200 .f32) (x1 : Vec F S512x1 .i32) (x2 : Vec F S1x3200 .i32) (xs0 : Vec F S512x1 .f32) (xs1 : Vec F S512x1 .f32) :
    sout0_C_1 c i arg2 harg2 arg3 harg3 arg4 harg4 arg5 harg5 arg6 harg6 arg7 harg7 hc0 hc1 x0 x1 x2 xs0 xs1 = k0_pay5 i x0 x2 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz]
  simp only [View.readAt_eq_ld, harg2.read_unread, harg3.read_unread, harg4.read_unread, harg6.read_unread, harg7.read_unread, View.ld_unit_zero (S := S512x3200) hz, View.ld_unit_zero (S := S512x1) hz, View.ld_unit_zero (S := S1x3200) hz, View.readCov_unit_zero (S := S512x1) _ hz]

theorem rowOut_C (c : Dev nD) (i : grid0.Coords) (arg2 : Memref sig .tc .vmem S512x3200 .f32) (harg2 : arg2.IsWhole) (arg3 : Memref sig .tc .vmem S512x1 .i32) (harg3 : arg3.IsWhole) (arg4 : Memref sig .tc .vmem S1x3200 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i) (x0 : Vec F S512x3200 .f32) (x1 : Vec F S512x1 .i32) (x2 : Vec F S1x3200 .i32) (xs0 : Vec F S512x1 .f32) (xs1 : Vec F S512x1 .f32) :
    out0_C_3 c i arg2 harg2 arg3 harg3 arg4 harg4 arg5 harg5 arg6 harg6 arg7 harg7 hc0 hc1 x0 x1 x2 xs0 xs1 = k0_pay1 (k0_pay4 x0 xs0) (k0_pay5 i x0 x2 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  try sl_unfold_words
  rw [View.canon_unit_zero hz]
  simp only [View.readAt_eq_ld, harg2.read_unread, harg3.read_unread, harg4.read_unread, harg6.read_unread, harg7.read_unread, View.ld_unit_zero (S := S512x3200) hz, View.ld_unit_zero (S := S512x1) hz, View.ld_unit_zero (S := S1x3200) hz, View.readCov_unit_zero (S := S512x1) _ hz]

end Cert.KernelIdeal.Loss

end
-- ==== Proof.KernelSteps.lean ====
/-
  After each grid step: the two running sums and, at a row block's last step, the stored row losses — each as the body's
  arithmetic of the step's blocks and of what the step before left.

  A row block takes ten consecutive steps. Its first step starts both sums from zero; each later step adds its block's
  contribution to what the step before left; its last step also stores log (first sum + ε) − second sum.
-/
import proofs.«428869_j55379308315499_3_alg».proof.Proof.KernelPieces

noncomputable section

open Idealize.ShloMosaic Idealize.ShloMosaic.TcCoe Idealize.SL.Sem
open Idealize.ShloMosaic.ValueIdx

namespace Cert.KernelIdeal.Loss

open Cert.KernelIdeal Cert.KernelIdeal.Gen

variable (m : (ℓ : Loc nD τ sig) → Buf (Elt Ideal) ℓ)

/-- The step's block of logits, of labels (a column), and of column numbers (a row). -/
abbrev xblk (c : Dev nD) (t : Fin cfg0.N) : FVec Ideal S512x3200 .f32 := iblk m c 0 t
abbrev lblk (c : Dev nD) (t : Fin cfg0.N) : IVec S512x1 32 := iblk m c 1 t
abbrev cblk (c : Dev nD) (t : Fin cfg0.N) : IVec S1x3200 32 := iblk m c 2 t

/-- The two running sums as the step before left them. -/
abbrev prevE (c : Dev nD) (t : Fin cfg0.N) : FVec Ideal S512x1 .f32 := (outsAt0 m c (t.val - 1) (Nat.lt_of_le_of_lt (Nat.sub_le _ _) t.isLt)).2.1
abbrev prevG (c : Dev nD) (t : Fin cfg0.N) : FVec Ideal S512x1 .f32 := (outsAt0 m c (t.val - 1) (Nat.lt_of_le_of_lt (Nat.sub_le _ _) t.isLt)).2.2

/-- First step of a row block: both sums restart from zero. -/
theorem step_first (c : Dev nD) (t : Fin cfg0.N) (h0 : t.val % 10 = 0) (h1 : ¬t.val % 10 = 9) :
    (outsAt0 m c t.val t.isLt).2.1 = k0_pay4 (F := Ideal) (xblk m c t) (k0_pay2 (F := Ideal))
    ∧ (outsAt0 m c t.val t.isLt).2.2 = k0_pay5 (F := Ideal) (grid0.coords t) (xblk m c t) (cblk m c t) (lblk m c t) (k0_pay3 (F := Ideal)) := by
  rw [outsAt0_A m c t h0 h1]
  dsimp only
  exact ⟨expSum_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
    pickSum_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)⟩

/-- A middle step: each sum is the step before's plus this block's contribution. -/
theorem step_middle (c : Dev nD) (t : Fin cfg0.N) (h0 : ¬t.val % 10 = 0) (h1 : ¬t.val % 10 = 9) :
    (outsAt0 m c t.val t.isLt).2.1 = k0_pay4 (F := Ideal) (xblk m c t) (prevE m c t)
    ∧ (outsAt0 m c t.val t.isLt).2.2 = k0_pay5 (F := Ideal) (grid0.coords t) (xblk m c t) (cblk m c t) (lblk m c t) (prevG m c t) := by
  rw [outsAt0_B m c t h0 h1]
  dsimp only
  exact ⟨expSum_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
    pickSum_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩

/-- The last step of a row block: the sums as in a middle step, and the stored block log (first + ε) − second of them. -/
theorem step_last (c : Dev nD) (t : Fin cfg0.N) (h0 : ¬t.val % 10 = 0) (h1 : t.val % 10 = 9) :
    (outsAt0 m c t.val t.isLt).1 = k0_pay1 (F := Ideal) (k0_pay4 (F := Ideal) (xblk m c t) (prevE m c t))
        (k0_pay5 (F := Ideal) (grid0.coords t) (xblk m c t) (cblk m c t) (lblk m c t) (prevG m c t))
    ∧ (outsAt0 m c t.val t.isLt).2.1 = k0_pay4 (F := Ideal) (xblk m c t) (prevE m c t)
    ∧ (outsAt0 m c t.val t.isLt).2.2 = k0_pay5 (F := Ideal) (grid0.coords t) (xblk m c t) (cblk m c t) (lblk m c t) (prevG m c t) := by
  rw [outsAt0_C m c t h0 h1]
  dsimp only
  exact ⟨rowOut_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
    expSum_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
    pickSum_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩

end Cert.KernelIdeal.Loss

end
-- ==== Proof.CrossEntropySpec.lean ====
/-
  Cross-entropy with a gathered logit, as ONE function of the argument arrays, and the laws of sums that join the two
  programs to it.

  For logits x : [8192, 32000] and labels l : [8192] (words), with every label in [0, 32000):
      loss x l = ( ∑ p, ( log (∑ k, exp x[p, k] + ε) − x[p, l p] ) ) / 8192 .
  The kernel walks each row in ten blocks of 3200 columns, keeping two running sums per row (of exp x, and of x under the
  mask "this column is the label"), and ends a row with log (acc₀ + ε) − acc₁; the host sums the rows and divides. The
  reference sums exp x over the whole row at once, gathers x[p, l p], and forms (−∑ gathered + ∑ log …) / 8192.
  On the extended reals sums may be re-grouped freely (+ is commutative and associative there), the masked sum has one
  non-zero term, and −∑ g + ∑ a = ∑ (a − g) as soon as every g is a real number: that is where finiteness is used.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.CrossEntropy

open Idealize.ShloMosaic Idealize.ShloMosaic.ValueIdx

/-! ## Shapes and constants -/

abbrev SX : Shape := ⟨2, ![8192, 32000]⟩
abbrev SL : Shape := ⟨1, ![8192]⟩
abbrev S0 : Shape := ⟨0, ![]⟩

/-- The additive guard inside the logarithm, the f32 nearest 1e-5 (the same word in both programs). -/
abbrev eps : EReal := Ideal.ofBits .f32 0x3727C5AC#32
/-- The divisor, the f32 word of 8192 (the same word in both programs). -/
abbrev rows : EReal := Ideal.ofBits .f32 0x46000000#32

/-- The column a label word names: the word read signed and clamped into [0, 31999] (a gather's reading of a start
    index); for a label already in range this is the label. -/
def col (w : BitVec 32) : Fin 32000 := ⟨min w.toInt.toNat 31999, by omega⟩

theorem col_val_of_lt {w : BitVec 32} (h : w.toNat < 32000) : (col w).val = w.toNat := by
  have h31 : w.toNat < 2 ^ 31 := by omega
  have : w.toInt = w.toNat := by
    rw [BitVec.toInt_eq_toNat_cond, if_pos (by omega)]
  show min w.toInt.toNat 31999 = w.toNat
  rw [this, Int.toNat_natCast]; omega

/-- One row's loss: log (∑ₖ exp x[p, k] + ε) − x[p, l p]. -/
def rowLoss (x : SX.Idx → EReal) (lab : SL.Idx → BitVec 32) (p : Fin 8192) : EReal :=
  Ideal.log ((∑ k : Fin 32000, Ideal.exp (x (ix2 p k))) + eps) - x (ix2 p (col (lab (ix1 p))))

/-- THE SPECIFICATION: the mean over the rows of the row losses, as a rank-0 array. -/
def loss (x : SX.Idx → EReal) (lab : SL.Idx → BitVec 32) : S0.Idx → EReal :=
  fun _ => Ideal.div (∑ p : Fin 8192, rowLoss x lab p) rows

/-! ## Sums in blocks -/

/-- A sum over a·b consecutive positions is the sum over a blocks of the sums over the b positions of each. -/
theorem sum_blocks {M : Type*} [AddCommMonoid M] (a b : ℕ) (f : Fin (a * b) → M) :
    ∑ k, f k = ∑ v : Fin a, ∑ j : Fin b, f (finProdFinEquiv (v, j)) := by
  rw [← Equiv.sum_comp finProdFinEquiv f, Fintype.sum_prod_type]

theorem finProdFinEquiv_val {a b : ℕ} (v : Fin a) (j : Fin b) : (finProdFinEquiv (v, j)).val = j.val + b * v.val := rfl

/-- The running sum a row keeps: started at 0 + p 0 at the first block (the accumulator is reset, then added to), and
    p (n+1) added at each later block. -/
def runSum {M : Type*} [AddCommMonoid M] (p : ℕ → M) : ℕ → M
  | 0 => 0 + p 0
  | n + 1 => runSum p n + p (n + 1)

theorem runSum_eq_sum_range {M : Type*} [AddCommMonoid M] (p : ℕ → M) (n : ℕ) :
    runSum p n = ∑ v ∈ Finset.range (n + 1), p v := by
  induction n with
  | zero => simp [runSum]
  | succ n ih => rw [runSum, ih, Finset.sum_range_succ _ (n + 1)]

/-- After the tenth block the running sum is the sum over the ten blocks. -/
theorem runSum_nine {M : Type*} [AddCommMonoid M] (p : ℕ → M) : runSum p 9 = ∑ v : Fin 10, p v.val := by
  rw [runSum_eq_sum_range, Finset.sum_range]

/-! ## The masked sum has one term -/

/-- A sum in which only the term at position a is kept is that term. -/
theorem sum_ite_val_eq {n : ℕ} (y : Fin n → EReal) (a : Fin n) :
    (∑ k : Fin n, if k.val = a.val then y k else 0) = y a := by
  have : ∀ k : Fin n, (if k.val = a.val then y k else 0) = if k = a then y k else 0 := fun k => by
    simp only [Fin.ext_iff]
  simp only [this, Finset.sum_ite_eq', Finset.mem_univ, if_true]

/-! ## The sign of a sum of reals -/

/-- The coercion of the reals into the extended reals commutes with finite sums. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- THE LAW THAT NEEDS FINITENESS. With every g i a real number, −∑ g + ∑ a = ∑ (a − g) on the extended reals
    (for an infinite g i the sign of a sum and the sum of the signs may differ). -/
theorem neg_sum_add_sum {ι : Type*} [Fintype ι] (a g : ι → EReal) (hg : ∀ i, ∃ r : ℝ, g i = r) :
    -(∑ i, g i) + ∑ i, a i = ∑ i, (a i - g i) := by
  choose r hr using hg
  have h1 : ∑ i, g i = ((∑ i, r i : ℝ) : EReal) := by rw [coe_sum]; exact Finset.sum_congr rfl fun i _ => hr i
  have h2 : ∑ i, (a i - g i) = ∑ i, a i + ((∑ i, -r i : ℝ) : EReal) := by
    rw [coe_sum, ← Finset.sum_add_distrib]
    exact Finset.sum_congr rfl fun i _ => by rw [hr i, sub_eq_add_neg, EReal.coe_neg]
  rw [h1, h2, Finset.sum_neg_distrib, EReal.coe_neg, add_comm]

end Cert.CrossEntropy

end
-- ==== Proof.LossBlocks.lean ====
/-
  A row's two sums, block by block.

  Row p of the logits is walked in ten blocks of 3200 columns. Block v contributes  eT v = ∑_q exp x[p, 3200 v + q]  to the
  first sum and  gT v = ∑_q [ l − 3200 v = q ] · x[p, 3200 v + q]  to the second, l the row's label word and the test made on
  32-bit words. Over the ten blocks the first is the sum of exp over the whole row; and, for a label in [0, 32000), exactly
  one (block, column) pair passes the test, the one with 3200 v + q = l, so the second is x[p, l].
-/
import proofs.«428869_j55379308315499_3_alg».proof.Proof.CrossEntropySpec
import Idealize.ShloMosaic.Lib.StableHlo.Predicate

noncomputable section

namespace Cert.CrossEntropy

open Idealize.ShloMosaic Idealize.ShloMosaic.ValueIdx

/-- Row and column numbers as indices (reduced into range: the numbers met are in range already). -/
def rowIx (n : ℕ) : Fin 8192 := ⟨n % 8192, Nat.mod_lt _ (by decide)⟩
def colIx (n : ℕ) : Fin 32000 := ⟨n % 32000, Nat.mod_lt _ (by decide)⟩

/-- The mask bit: the label word moved into column block v's frame, compared with a column number. -/
abbrev hitBit (v lab io : BitVec 32) : BitVec 1 := IntOp.cmpi .eq (IntOp.subi lab (Scalar.muli v 3200#32)) io

/-- Block v's contribution to the sum of exponentials of row 512 b + r. -/
def eT (X : SX.Idx → EReal) (b r v : ℕ) : EReal :=
  ∑ q : Fin 3200, Ideal.exp (X (ix2 (rowIx (512 * b + r)) (colIx (3200 * v + q.val))))

/-- Block v's contribution to the masked sum of row 512 b + r. -/
def gT (X : SX.Idx → EReal) (Lb : SL.Idx → BitVec 32) (b r v : ℕ) : EReal :=
  ∑ q : Fin 3200, Scalar.select (hitBit (BitVec.ofNat 32 v) (Lb (ix1 (rowIx (512 * b + r)))) (BitVec.ofNat 32 q.val))
    (X (ix2 (rowIx (512 * b + r)) (colIx (3200 * v + q.val)))) (Ideal.ofBits .f32 0x00000000#32)

/-- Column 3200 v + q of the row is position (v, q) of the ten-by-3200 split. -/
theorem colIx_block (v : Fin 10) (q : Fin 3200) : colIx (3200 * v.val + q.val) = (finProdFinEquiv (v, q) : Fin (10 * 3200)) := by
  apply Fin.ext
  show (3200 * v.val + q.val) % 32000 = q.val + 3200 * v.val
  have := v.isLt; have := q.isLt; omega

/-- The ten blocks' exponential sums make the whole row's. -/
theorem sum_eT (X : SX.Idx → EReal) (b r : ℕ) :
    ∑ v ∈ Finset.range 10, eT X b r v = ∑ k : Fin 32000, Ideal.exp (X (ix2 (rowIx (512 * b + r)) k)) := by
  rw [Finset.sum_range (fun v => eT X b r v)]
  refine Eq.trans ?_ (sum_blocks 10 3200 (fun k => Ideal.exp (X (ix2 (rowIx (512 * b + r)) k)))).symm
  refine Finset.sum_congr rfl fun v _ => Finset.sum_congr rfl fun q _ => ?_
  rw [colIx_block]

/-- A word equals the word of a small number exactly when its value is that number. -/
theorem eq_ofNat_iff (w : BitVec 32) (N : ℕ) (hN : N < 2 ^ 32) : w = BitVec.ofNat 32 N ↔ N = w.toNat := by
  constructor
  · intro h; rw [h, BitVec.toNat_ofNat, Nat.mod_eq_of_lt hN]
  · intro h; apply BitVec.eq_of_toNat_eq; rw [BitVec.toNat_ofNat, Nat.mod_eq_of_lt hN, h]

/-- The mask bit is set exactly at the column 3200 v + q that is the label. -/
theorem hitBit_iff (v : Fin 10) (q : Fin 3200) (lab : BitVec 32) :
    hitBit (BitVec.ofNat 32 v.val) lab (BitVec.ofNat 32 q.val) = 1#1 ↔ q.val + 3200 * v.val = lab.toNat := by
  have hv := v.isLt; have hq := q.isLt
  have h32 : (2 : ℕ) ^ 32 = 4294967296 := by decide
  have hsum : BitVec.ofNat 32 q.val + BitVec.ofNat 32 v.val * BitVec.ofNat 32 3200 = BitVec.ofNat 32 (q.val + v.val * 3200) := by
    rw [BitVec.ofNat_add, BitVec.ofNat_mul]
  rw [StableHlo.Predicate.cmpi_eq_iff]
  show lab - BitVec.ofNat 32 v.val * BitVec.ofNat 32 3200 = BitVec.ofNat 32 q.val ↔ _
  constructor
  · intro h
    have h' : lab = BitVec.ofNat 32 (q.val + v.val * 3200) := by rw [← hsum, ← h, BitVec.sub_add_cancel]
    have := (eq_ofNat_iff lab _ (by omega)).mp h'
    omega
  · intro h
    have h' : lab = BitVec.ofNat 32 (q.val + v.val * 3200) := (eq_ofNat_iff lab _ (by omega)).mpr (by omega)
    rw [h', ← hsum, BitVec.add_sub_cancel]

/-- For a label in range, the ten blocks' masked sums make the row's entry at the label. -/
theorem sum_gT (X : SX.Idx → EReal) (Lb : SL.Idx → BitVec 32) (b r : ℕ)
    (hl : (Lb (ix1 (rowIx (512 * b + r)))).toNat < 32000) :
    ∑ v ∈ Finset.range 10, gT X Lb b r v = X (ix2 (rowIx (512 * b + r)) (col (Lb (ix1 (rowIx (512 * b + r)))))) := by
  rw [Finset.sum_range (fun v => gT X Lb b r v)]
  refine Eq.trans ?_ (sum_ite_val_eq (fun k : Fin 32000 => X (ix2 (rowIx (512 * b + r)) k)) (col (Lb (ix1 (rowIx (512 * b + r))))))
  refine Eq.trans ?_ (sum_blocks 10 3200 (fun k : Fin (10 * 3200) =>
    if k.val = (col (Lb (ix1 (rowIx (512 * b + r))))).val then X (ix2 (rowIx (512 * b + r)) k) else 0)).symm
  refine Finset.sum_congr rfl fun v _ => Finset.sum_congr rfl fun q _ => ?_
  show Scalar.select _ _ _ = if (finProdFinEquiv (v, q) : Fin (10 * 3200)).val = (col (Lb (ix1 (rowIx (512 * b + r))))).val
    then X (ix2 (rowIx (512 * b + r)) (finProdFinEquiv (v, q) : Fin (10 * 3200))) else 0
  rw [colIx_block, col_val_of_lt hl, finProdFinEquiv_val]
  show (if hitBit (BitVec.ofNat 32 v.val) (Lb (ix1 (rowIx (512 * b + r)))) (BitVec.ofNat 32 q.val) = 1#1 then _ else Ideal.ofBits .f32 0x00000000#32) = _
  rw [Ideal.ofBits_zero_f32]
  exact if_congr (hitBit_iff v q _) rfl rfl

end Cert.CrossEntropy

end
-- ==== Proof.KernelBlocks.lean ====
/-
  The blocks a grid step sees, read off the argument arrays, and their contributions to a row's two sums.

  Step t works on row block t / 10 and column block t % 10: its logits block is rows 512 (t / 10) … + 511, columns
  3200 (t % 10) … + 3199 of the logits; its label column is the labels of those rows (the host lays the label vector out
  as a column first); its row of column numbers is 0 … 3199 (the host's iota, laid out as a row).
-/
import proofs.«428869_j55379308315499_3_alg».proof.Proof.KernelSteps
import proofs.«428869_j55379308315499_3_alg».proof.Proof.LossBlocks
import Idealize.ShloMosaic.Lib.StableHlo.Run
import Idealize.ShloMosaic.Lib.Pipeline.Value

noncomputable section

open Idealize.ShloMosaic Idealize.ShloMosaic.TcCoe Idealize.SL.Sem
open Idealize.ShloMosaic.ValueIdx

namespace Cert.KernelIdeal.Loss

open Cert.KernelIdeal Cert.KernelIdeal.Gen Cert.CrossEntropy

variable (m : (ℓ : Loc nD τ sig) → Buf (Elt Ideal) ℓ)

/-- The logits and the labels as launched. -/
abbrev argX (c : Dev nD) : SX.Idx → EReal := m ((c : Thread nD τ).loc main_arg0)
abbrev argL (c : Dev nD) : SL.Idx → BitVec 32 := m ((c : Thread nD τ).loc main_arg1)

/-- The printed index maps and the column-block coordinate, decided once over the 160 steps. -/
theorem grid_facts : ∀ t : Fin cfg0.N, win0_0.index t (0 : Fin 2) = t.val / 10 ∧ win0_0.index t (1 : Fin 2) = t.val % 10
    ∧ win0_1.index t (0 : Fin 2) = t.val / 10 ∧ win0_1.index t (1 : Fin 2) = 0
    ∧ win0_2.index t (0 : Fin 2) = 0 ∧ win0_2.index t (1 : Fin 2) = 0
    ∧ win0_3.index t (0 : Fin 2) = t.val / 10 ∧ win0_3.index t (1 : Fin 2) = 0
    ∧ ((grid0.coords t) 1).val = t.val % 10 :=
  (by decide +kernel : ∀ t : Fin grid0.N, _)

/-- The logits block at (r, q) is the logits at row 512 (t / 10) + r, column 3200 (t % 10) + q. -/
theorem xblk_apply (c : Dev nD) (t : Fin cfg0.N) (r : Fin 512) (q : Fin 3200) :
    xblk m c t (ix2 r q) = argX m c (ix2 (rowIx (512 * (t.val / 10) + r.val)) (colIx (3200 * (t.val % 10) + q.val))) := by
  have hN : t.val < 160 := lt_of_lt_of_eq t.isLt (show cfg0.N = 160 from N_0)
  obtain ⟨e0, e1, -⟩ := grid_facts t
  show ((cfg0.win 0).blk t).view.read (Elt Ideal) (V m c (Pipeline.arrRef spec0 0)) (ix2 r q) = _
  rw [View.read_apply]
  show V m c main_arg0 _ = _
  refine (congrFun (V_main_arg0 m c) _).trans ?_
  refine congrArg (m ((c : Thread nD τ).loc main_arg0)) ?_
  funext a; apply Fin.ext
  match a with
  | ⟨0, _⟩ => show win0_0.index t (0 : Fin 2) * 512 + 1 * r.val = (512 * (t.val / 10) + r.val) % 8192
              rw [e0]; have := r.isLt; omega
  | ⟨1, _⟩ => show win0_0.index t (1 : Fin 2) * 3200 + 1 * q.val = (3200 * (t.val % 10) + q.val) % 32000
              rw [e1]; have := q.isLt; omega

/-- What the region finds in the label column's array: the label vector laid out as a column. -/
theorem V_labels (c : Dev nD) : (V m c main_v0 : S8192x1.Idx → BitVec 32)
    = broadcastInDim S8192x1 ![0] bcast_S8192_S8192x1_0 (m ((c : Thread nD τ).loc main_arg1)) := by
  show StableHlo.after hostOps0 (fun b => m (c, b)) (Proc.devRef .tc main_v0) = _
  after_results <;> rfl

/-- What the region finds in the column numbers' array: 0 … 3199 laid out as a row. -/
theorem V_cols (c : Dev nD) : (V m c main_v2 : S1x3200.Idx → BitVec 32)
    = broadcastInDim S1x3200 ![1] bcast_S3200_S1x3200_1 (iotaInDim S3200 32 0) := by
  show StableHlo.after hostOps0 (fun b => m (c, b)) (Proc.devRef .tc main_v2) = _
  after_results <;> rfl

/-- The label column at (r, 0) is the label of row 512 (t / 10) + r. -/
theorem lblk_apply (c : Dev nD) (t : Fin cfg0.N) (r : Fin 512) :
    lblk m c t (ix2 r (0 : Fin 1)) = argL m c (ix1 (rowIx (512 * (t.val / 10) + r.val))) := by
  have hN : t.val < 160 := lt_of_lt_of_eq t.isLt (show cfg0.N = 160 from N_0)
  obtain ⟨-, -, e2, -⟩ := grid_facts t
  show ((cfg0.win 1).blk t).view.read (Elt Ideal) (V m c (Pipeline.arrRef spec0 1)) (ix2 r (0 : Fin 1)) = _
  rw [View.read_apply]
  show V m c main_v0 _ = _
  refine (congrFun (V_labels m c) _).trans ?_
  refine broadcastInDim_apply _ bcast_S8192_S8192x1_0 _ _ (ix1 (rowIx (512 * (t.val / 10) + r.val))) fun a => ?_
  match a with
  | ⟨0, _⟩ => show (512 * (t.val / 10) + r.val) % 8192 = if (8192 : Nat) = 1 then 0 else win0_1.index t (0 : Fin 2) * 512 + 1 * r.val
              rw [if_neg (by decide), e2]; have := r.isLt; omega

/-- The row of column numbers at (0, q) is the word of q. -/
theorem cblk_apply (c : Dev nD) (t : Fin cfg0.N) (q : Fin 3200) :
    cblk m c t (ix2 (0 : Fin 1) q) = BitVec.ofNat 32 q.val := by
  obtain ⟨-, -, -, -, -, e5, -⟩ := grid_facts t
  show ((cfg0.win 2).blk t).view.read (Elt Ideal) (V m c (Pipeline.arrRef spec0 2)) (ix2 (0 : Fin 1) q) = _
  rw [View.read_apply]
  show V m c main_v2 _ = _
  refine (congrFun (V_cols m c) _).trans ?_
  refine (broadcastInDim_apply _ bcast_S3200_S1x3200_1 _ _ (ix1 q) fun a => ?_).trans rfl
  match a with
  | ⟨0, _⟩ => show q.val = if (3200 : Nat) = 1 then 0 else win0_2.index t (1 : Fin 2) * 3200 + 1 * q.val
              rw [if_neg (by decide), e5]; omega

/-- The step's contribution to the sum of exponentials of its rows. -/
theorem blockExp (c : Dev nD) (n : ℕ) (h : n < cfg0.N) (r : Fin 512) :
    ∑ q : Fin 3200, Ideal.exp (xblk m c ⟨n, h⟩ (ix2 r q)) = eT (argX m c) (n / 10) r.val (n % 10) := by
  unfold eT
  exact Finset.sum_congr rfl fun q _ => congrArg Ideal.exp (xblk_apply m c ⟨n, h⟩ r q)

/-- The step's contribution to the masked sum of its rows. -/
theorem blockPick (c : Dev nD) (n : ℕ) (h : n < cfg0.N) (r : Fin 512) :
    ∑ q : Fin 3200, Scalar.select (hitBit (BitVec.ofNat 32 ((grid0.coords (⟨n, h⟩ : Fin cfg0.N)) 1).val)
        (lblk m c ⟨n, h⟩ (ix2 r (0 : Fin 1))) (cblk m c ⟨n, h⟩ (ix2 (0 : Fin 1) q)))
      (xblk m c ⟨n, h⟩ (ix2 r q)) (Ideal.ofBits .f32 0x00000000#32)
      = gT (argX m c) (argL m c) (n / 10) r.val (n % 10) := by
  obtain ⟨-, -, -, -, -, -, -, -, e8⟩ := grid_facts (⟨n, h⟩ : Fin cfg0.N)
  unfold gT
  refine Finset.sum_congr rfl fun q _ => ?_
  rw [xblk_apply, lblk_apply, cblk_apply, e8]

end Cert.KernelIdeal.Loss

end
-- ==== Proof.KernelPayloads.lean ====
/-
  The kernel body's arithmetic, read entry by entry on the extended reals.

  One grid step sees a block x of 512 rows by 3200 columns, the 512 labels of those rows as a column, and the column
  numbers 0 … 3199 as a row. Per row r it adds to a running sum  ∑_q exp x[r, q]  and to another  ∑_q [ label r − 3200·v = q ] · x[r, q]
  (v the column-block number: the mask keeps the one column, if any, that is the row's label), and the last step of a row
  block stores  log (first sum + ε) − second sum.
-/
import proofs.«428869_j55379308315499_3_alg».proof.Proof.Gen.KernelIdeal.Skeleton
import proofs.«428869_j55379308315499_3_alg».proof.Proof.LossBlocks
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem
open Idealize.ShloMosaic.ValueIdx

namespace Cert.KernelIdeal.Loss

open Cert.KernelIdeal Cert.KernelIdeal.Gen

/-! ## Layout steps at an entry -/

/-- A vector of 512 row values kept as a column reads, at (r, 0), the value of row r. -/
theorem cast_col (v : FVec Ideal S512 .f32) (r : Fin 512) :
    shapeCast S512x1 v shapeCasts_S512_S512x1 (ix2 r (0 : Fin 1)) = v (ix1 r) :=
  shapeCast_apply v shapeCasts_S512_S512x1 (ix2 r (0 : Fin 1)) (ix1 r) (by
    rewrite [Shape.rowMajor_val_one, Shape.rowMajor_val_two]; show r.val = r.val * 1 + 0; omega)

/-- A column laid across the 3200 columns of the block reads, at (r, q), the column at (r, 0). -/
theorem bcast_col {α : Type} (v : S512x1.Idx → α) (r : Fin 512) (q : Fin 3200) :
    broadcastTo S512x3200 v broadcasts_S512x1_S512x3200 (ix2 r q) = v (ix2 r (0 : Fin 1)) :=
  broadcastTo_apply v broadcasts_S512x1_S512x3200 (ix2 r q) (ix2 r (0 : Fin 1)) fun a => by
    match a with
    | ⟨0, _⟩ => show r.val = if (512 : Nat) = 1 then 0 else r.val; rw [if_neg (by decide)]
    | ⟨1, _⟩ => show 0 = if (1 : Nat) = 1 then 0 else q.val; rw [if_pos rfl]

/-- A row laid down the 512 rows of the block reads, at (r, q), the row at (0, q). -/
theorem bcast_row {α : Type} (v : S1x3200.Idx → α) (r : Fin 512) (q : Fin 3200) :
    broadcastTo S512x3200 v broadcasts_S1x3200_S512x3200 (ix2 r q) = v (ix2 (0 : Fin 1) q) :=
  broadcastTo_1b_ab_apply v broadcasts_S1x3200_S512x3200 r q

/-- The lane sum of a block at row r is the sum over its 3200 columns. -/
theorem lane_sum (src : FVec Ideal S512x3200 .f32) (r : Fin 512) :
    multiReduction .add [1] S512 src 0x00000000#32 reduces_S512x3200_S512 (.inl rfl) rfl (ix1 r) = ∑ q : Fin 3200, src (ix2 r q) := by
  refine (Ideal.multiReduction_add_single src 0x00000000#32 reduces_S512x3200_S512 (.inl rfl) rfl (ix1 r)).trans ?_
  refine Finset.sum_congr rfl fun q _ => congrArg src ?_
  exact funext fun a => Fin.ext (by match a with | ⟨0, _⟩ => rfl | ⟨1, _⟩ => rfl)

/-! ## The payloads -/

/-- The two resets store zero. -/
theorem reset0_apply (y : S512x1.Idx) : k0_pay2 (F := Ideal) y = 0 := by
  have e : k0_pay2 (F := Ideal) = broadcast S512x1 (Scalar.ofBits (F := Ideal) .f32 0x00000000#32) := shapeCast_self _ _
  rw [e]; exact Ideal.ofBits_zero_f32

theorem reset1_apply (y : S512x1.Idx) : k0_pay3 (F := Ideal) y = 0 := by
  have e : k0_pay3 (F := Ideal) = broadcast S512x1 (Scalar.ofBits (F := Ideal) .f32 0x00000000#32) := shapeCast_self _ _
  rw [e]; exact Ideal.ofBits_zero_f32

/-- The first running sum's update: at row r, the accumulator plus the sum of exp over the block's row. -/
theorem expAcc_apply (x0 : FVec Ideal S512x3200 .f32) (acc : FVec Ideal S512x1 .f32) (r : Fin 512) :
    k0_pay4 (F := Ideal) x0 acc (ix2 r (0 : Fin 1)) = acc (ix2 r (0 : Fin 1)) + ∑ q : Fin 3200, Ideal.exp (x0 (ix2 r q)) := by
  have e : k0_pay4 (F := Ideal) x0 acc = addf acc (shapeCast S512x1 (multiReduction .add [1] S512 (exp x0) 0x00000000#32
      reduces_S512x3200_S512 (.inl rfl) rfl) shapeCasts_S512_S512x1) := shapeCast_self _ _
  refine (congrFun e _).trans ?_
  refine congrArg (acc (ix2 r (0 : Fin 1)) + ·) ?_
  refine (cast_col _ r).trans ?_
  exact lane_sum _ r

/-- The second running sum's update: at row r, the accumulator plus the sum over the block's row of x under the mask. -/
theorem pickAcc_apply (i : grid0.Coords) (x0 : FVec Ideal S512x3200 .f32) (io : IVec S1x3200 32) (lbl : IVec S512x1 32)
    (acc : FVec Ideal S512x1 .f32) (r : Fin 512) :
    k0_pay5 (F := Ideal) i x0 io lbl acc (ix2 r (0 : Fin 1))
      = acc (ix2 r (0 : Fin 1)) + ∑ q : Fin 3200, Scalar.select (Cert.CrossEntropy.hitBit (BitVec.ofNat 32 (i 1).val) (lbl (ix2 r (0 : Fin 1))) (io (ix2 (0 : Fin 1) q)))
          (x0 (ix2 r q)) (Ideal.ofBits .f32 0x00000000#32) := by
  have e : k0_pay5 (F := Ideal) i x0 io lbl acc = addf acc (shapeCast S512x1 (multiReduction .add [1] S512
      (select (cmpi .eq
          (broadcastTo S512x3200 (subi (shapeCast S512x1 lbl shapeCasts_S512x1_S512x1)
            (broadcast S512x1 (Scalar.muli (BitVec.ofNat 32 (i 1).val) 3200#32))) broadcasts_S512x1_S512x3200)
          (broadcastTo S512x3200 (shapeCast S1x3200 io shapeCasts_S1x3200_S1x3200) broadcasts_S1x3200_S512x3200))
        x0 (broadcast S512x3200 (Scalar.ofBits (F := Ideal) .f32 0x00000000#32)))
      0x00000000#32 reduces_S512x3200_S512 (.inl rfl) rfl) shapeCasts_S512_S512x1) := shapeCast_self _ _
  refine (congrFun e _).trans ?_
  refine congrArg (acc (ix2 r (0 : Fin 1)) + ·) ?_
  refine (cast_col _ r).trans ?_
  refine (lane_sum _ r).trans ?_
  refine Finset.sum_congr rfl fun q _ => ?_
  show Scalar.select (IntOp.cmpi .eq
      (broadcastTo S512x3200 (subi (shapeCast S512x1 lbl shapeCasts_S512x1_S512x1)
        (broadcast S512x1 (Scalar.muli (BitVec.ofNat 32 (i 1).val) 3200#32))) broadcasts_S512x1_S512x3200 (ix2 r q))
      (broadcastTo S512x3200 (shapeCast S1x3200 io shapeCasts_S1x3200_S1x3200) broadcasts_S1x3200_S512x3200 (ix2 r q)))
    (x0 (ix2 r q)) (Ideal.ofBits .f32 0x00000000#32) = _
  rewrite [bcast_col, bcast_row, shapeCast_self, shapeCast_self]
  rfl

/-- The last step's store: at every entry, log (first sum + ε) − second sum. -/
theorem rowOut_apply (a b : FVec Ideal S512x1 .f32) (y : S512x1.Idx) :
    k0_pay1 (F := Ideal) a b y = Ideal.log (a y + Cert.CrossEntropy.eps) - b y := rfl

end Cert.KernelIdeal.Loss

end
-- ==== Proof.KernelAccum.lean ====
/-
  The running sums, closed: after step n of the grid, row r of the step's row block holds, in the first accumulator, the sum
  of the exponential-sum terms of column blocks 0 … n % 10 of that row, and in the second the masked-sum terms of the
  same blocks. By induction on the step: a row block's first step restarts from zero plus its own term, every other step
  adds its term to what the step before left. At a row block's last step the stored entry is
  log (∑ over all ten blocks + ε) − (∑ of the ten masked terms).
-/
import proofs.«428869_j55379308315499_3_alg».proof.Proof.KernelBlocks
import proofs.«428869_j55379308315499_3_alg».proof.Proof.KernelPayloads

noncomputable section

open Idealize.ShloMosaic Idealize.ShloMosaic.TcCoe Idealize.SL.Sem
open Idealize.ShloMosaic.ValueIdx

namespace Cert.KernelIdeal.Loss

open Cert.KernelIdeal Cert.KernelIdeal.Gen Cert.CrossEntropy

variable (m : (ℓ : Loc nD τ sig) → Buf (Elt Ideal) ℓ)

/-- Both accumulators after step n, at row r of the step's row block. -/
theorem sums_after (c : Dev nD) (r : Fin 512) : ∀ (n : ℕ) (h : n < cfg0.N),
    (outsAt0 m c n h).2.1 (ix2 r (0 : Fin 1)) = ∑ v ∈ Finset.range (n % 10 + 1), eT (argX m c) (n / 10) r.val v
    ∧ (outsAt0 m c n h).2.2 (ix2 r (0 : Fin 1)) = ∑ v ∈ Finset.range (n % 10 + 1), gT (argX m c) (argL m c) (n / 10) r.val v
  | 0, h => by
    obtain ⟨s0, s1⟩ := step_first m c (⟨0, h⟩ : Fin cfg0.N) (Nat.zero_mod _) (by show ¬(0 % 10 = 9); decide)
    constructor
    · refine (congrFun s0 _).trans ((expAcc_apply (xblk m c ⟨0, h⟩) (k0_pay2 (F := Ideal)) r).trans ?_)
      rw [reset0_apply, zero_add, blockExp m c 0 h r]
      simp
    · refine (congrFun s1 _).trans ((pickAcc_apply (grid0.coords (⟨0, h⟩ : Fin cfg0.N)) (xblk m c ⟨0, h⟩) (cblk m c ⟨0, h⟩)
        (lblk m c ⟨0, h⟩) (k0_pay3 (F := Ideal)) r).trans ?_)
      rw [reset1_apply, zero_add, blockPick m c 0 h r]
      simp
  | n + 1, h => by
    have hN : n + 1 < 160 := lt_of_lt_of_eq h (show cfg0.N = 160 from N_0)
    obtain ⟨ihE, ihG⟩ := sums_after c r n (Nat.lt_of_succ_lt h)
    by_cases h0 : (n + 1) % 10 = 0
    · have h1 : ¬(n + 1) % 10 = 9 := by omega
      obtain ⟨s0, s1⟩ := step_first m c (⟨n + 1, h⟩ : Fin cfg0.N) h0 h1
      constructor
      · refine (congrFun s0 _).trans ((expAcc_apply (xblk m c (⟨n + 1, h⟩ : Fin cfg0.N)) (k0_pay2 (F := Ideal)) r).trans ?_)
        rw [reset0_apply, zero_add, blockExp m c (n + 1) h r, h0]
        simp
      · refine (congrFun s1 _).trans ((pickAcc_apply (grid0.coords (⟨n + 1, h⟩ : Fin cfg0.N)) (xblk m c (⟨n + 1, h⟩ : Fin cfg0.N)) (cblk m c (⟨n + 1, h⟩ : Fin cfg0.N))
          (lblk m c (⟨n + 1, h⟩ : Fin cfg0.N)) (k0_pay3 (F := Ideal)) r).trans ?_)
        rw [reset1_apply, zero_add, blockPick m c (n + 1) h r, h0]
        simp
    · have e1 : (n + 1) / 10 = n / 10 := by omega
      have e2 : (n + 1) % 10 = n % 10 + 1 := by omega
      have hs : (outsAt0 m c (n + 1) h).2.1 = k0_pay4 (F := Ideal) (xblk m c (⟨n + 1, h⟩ : Fin cfg0.N)) (prevE m c (⟨n + 1, h⟩ : Fin cfg0.N))
          ∧ (outsAt0 m c (n + 1) h).2.2 = k0_pay5 (F := Ideal) (grid0.coords (⟨n + 1, h⟩ : Fin cfg0.N)) (xblk m c (⟨n + 1, h⟩ : Fin cfg0.N)) (cblk m c (⟨n + 1, h⟩ : Fin cfg0.N)) (lblk m c (⟨n + 1, h⟩ : Fin cfg0.N)) (prevG m c (⟨n + 1, h⟩ : Fin cfg0.N)) := by
        by_cases h1 : (n + 1) % 10 = 9
        · exact (step_last m c (⟨n + 1, h⟩ : Fin cfg0.N) h0 h1).2
        · exact step_middle m c (⟨n + 1, h⟩ : Fin cfg0.N) h0 h1
      obtain ⟨s0, s1⟩ := hs
      constructor
      · refine (congrFun s0 _).trans ((expAcc_apply (xblk m c (⟨n + 1, h⟩ : Fin cfg0.N)) (prevE m c (⟨n + 1, h⟩ : Fin cfg0.N)) r).trans ?_)
        rw [blockExp m c (n + 1) h r, e1, e2, Finset.sum_range_succ _ (n % 10 + 1)]
        exact congrArg (· + eT (argX m c) (n / 10) r.val (n % 10 + 1)) ihE
      · refine (congrFun s1 _).trans ((pickAcc_apply (grid0.coords (⟨n + 1, h⟩ : Fin cfg0.N)) (xblk m c (⟨n + 1, h⟩ : Fin cfg0.N)) (cblk m c (⟨n + 1, h⟩ : Fin cfg0.N))
          (lblk m c (⟨n + 1, h⟩ : Fin cfg0.N)) (prevG m c (⟨n + 1, h⟩ : Fin cfg0.N)) r).trans ?_)
        rw [blockPick m c (n + 1) h r, e1, e2, Finset.sum_range_succ _ (n % 10 + 1)]
        exact congrArg (· + gT (argX m c) (argL m c) (n / 10) r.val (n % 10 + 1)) ihG

/-- The entry a row block's last step stores for its row r. -/
theorem rows_after (c : Dev nD) (r : Fin 512) (n : ℕ) (h : n < cfg0.N) (h9 : n % 10 = 9) :
    (outsAt0 m c n h).1 (ix2 r (0 : Fin 1))
      = Ideal.log ((∑ v ∈ Finset.range 10, eT (argX m c) (n / 10) r.val v) + eps)
        - ∑ v ∈ Finset.range 10, gT (argX m c) (argL m c) (n / 10) r.val v := by
  have h0 : ¬n % 10 = 0 := by omega
  obtain ⟨s3, s0, s1⟩ := step_last m c (⟨n, h⟩ : Fin cfg0.N) h0 h9
  obtain ⟨iE, iG⟩ := sums_after m c r n h
  have hE := (congrFun s0 (ix2 r (0 : Fin 1))).symm.trans iE
  have hG := (congrFun s1 (ix2 r (0 : Fin 1))).symm.trans iG
  rw [h9] at hE hG
  refine (congrFun s3 _).trans ((rowOut_apply _ _ _).trans ?_)
  rw [hE, hG]

end Cert.KernelIdeal.Loss

end
-- ==== Proof.KernelValue.lean ====
/-
  The kernel's result: the array of row losses the grid leaves, and the host's mean of it.

  Row block b is written back once, by step 10 b + 9, and that block holds, at row r, the loss of row 512 b + r: the sixteen
  blocks cover the 8192 rows, so the result array is the row losses; the host then sums it from zero and divides by 8192.
-/
import proofs.«428869_j55379308315499_3_alg».proof.Proof.KernelAccum
import Idealize.ShloMosaic.Lib.Pipeline.Value
import Idealize.ShloMosaic.Lib.StableHlo.Run

noncomputable section

open Idealize.ShloMosaic Idealize.ShloMosaic.TcCoe Idealize.SL.Sem
open Idealize.ShloMosaic.ValueIdx

namespace Cert.KernelIdeal.Loss

open Cert.KernelIdeal Cert.KernelIdeal.Gen Cert.CrossEntropy
open Idealize.ShloMosaic.Pipeline (Dat)

variable (m : (ℓ : Loc nD τ sig) → Buf (Elt Ideal) ℓ) (ρ : Dev nD → PrngReg)

/-- The array of row losses, as a column. -/
def rowsOut (c : Dev nD) : S8192x1.Idx → EReal :=
  fun i => rowLoss (argX m c) (argL m c) ⟨(i 0).val, idx2_lt0 i⟩

/-- What a row block's last step writes back is that block of the row losses. -/
theorem flushed_eq (c : Dev nD) (hlab : ∀ p : Fin 8192, (argL m c (ix1 p)).toNat < 32000) (t : Fin cfg0.N)
    (hf : (cfg0.win 3).flush t = true) :
    (dats m 0 c).flushed 3 t = ((cfg0.win 3).blk t).view.read (Elt Ideal) (rowsOut m c) := by
  have hN : t.val < 160 := lt_of_lt_of_eq t.isLt (show cfg0.N = 160 from N_0)
  have h9 : t.val % 10 = 9 := (flush0_3 t).mp hf
  obtain ⟨-, -, -, -, -, -, e6, -⟩ := grid_facts t
  have key : ∀ j : S512x1.Idx, (outsAt0 m c t.val t.isLt).1 j = rowsOut m c (((cfg0.win 3).blk t).view.emb j) := by
    intro j
    obtain ⟨r, z, rfl⟩ : ∃ (r : Fin 512) (z : Fin 1), j = ix2 r z := ⟨j 0, j 1, eq_ix2 j⟩
    obtain rfl : z = 0 := Subsingleton.elim _ _
    have hp : (⟨((((cfg0.win 3).blk t).view.emb (ix2 r (0 : Fin 1))) 0).val, idx2_lt0 _⟩ : Fin 8192)
        = rowIx (512 * (t.val / 10) + r.val) := Fin.ext (by
      show win0_3.index t (0 : Fin 2) * 512 + 1 * r.val = (512 * (t.val / 10) + r.val) % 8192
      rw [e6]; have := r.isLt; omega)
    refine Eq.trans ?_ (congrArg (rowLoss (argX m c) (argL m c)) hp).symm
    rewrite [rows_after m c r t.val t.isLt h9, sum_eT, sum_gT _ _ _ _ (hlab _)]
    rfl
  show (cfg0.win 3).cut (grid0.coords t) ((dats m 0 c).after 3 t) = _
  rw [after0_3]
  funext j
  exact key j

/-- The result array after the run is the row losses. -/
theorem final_rows (c : Dev nD) (hlab : ∀ p : Fin 8192, (argL m c (ix1 p)).toNat < 32000) :
    (dats m 0 c).arrAt 3 cfg0.N = rowsOut m c :=
  (dats m 0 c).arrAt_eq_of_cover 3 (rowsOut m c) (fun t hf => flushed_eq m c hlab t hf) fun (i : S8192x1.Idx) => by
    have hi0 : (i 0).val < 8192 := idx2_lt0 i
    have hi1 : (i 1).val < 1 := idx2_lt1 i
    have hlt : 10 * ((i 0).val / 512) + 9 < cfg0.N := by rw [show cfg0.N = 160 from N_0]; omega
    obtain ⟨-, -, -, -, -, -, e6, e7, -⟩ := grid_facts (⟨10 * ((i 0).val / 512) + 9, hlt⟩ : Fin cfg0.N)
    refine ⟨⟨10 * ((i 0).val / 512) + 9, hlt⟩, (flush0_3 _).mpr (by show (10 * ((i 0).val / 512) + 9) % 10 = 9; omega), ?_⟩
    show i ∈ ((View.whole main_v3).slice (win0_3.rect ⟨10 * ((i 0).val / 512) + 9, hlt⟩)).set
    rw [View.set_slice_whole, Rect.mem_set_unit]
    intro a
    match a with
    | ⟨0, _⟩ =>
      show win0_3.index ⟨10 * ((i 0).val / 512) + 9, hlt⟩ (0 : Fin 2) * 512 ≤ (i 0).val
        ∧ (i 0).val < win0_3.index ⟨10 * ((i 0).val / 512) + 9, hlt⟩ (0 : Fin 2) * 512 + 512
      rw [e6]; show (10 * ((i 0).val / 512) + 9) / 10 * 512 ≤ (i 0).val ∧ (i 0).val < (10 * ((i 0).val / 512) + 9) / 10 * 512 + 512
      omega
    | ⟨1, _⟩ =>
      show win0_3.index ⟨10 * ((i 0).val / 512) + 9, hlt⟩ (1 : Fin 2) * 1 ≤ (i 1).val
        ∧ (i 1).val < win0_3.index ⟨10 * ((i 0).val / 512) + 9, hlt⟩ (1 : Fin 2) * 1 + 1
      rw [e7]; omega

/-- The host's part after the region: the sum of the column from zero, divided by 8192. -/
def meanOf (w : S8192x1.Idx → EReal) : S_.Idx → EReal :=
  Host.divf (F := Ideal) (Host.reduceAdd (F := Ideal) w (constant (F := Ideal) S_ .f32 0x00000000#32) reducesTo_S8192x1_S_d0_1 h_S_)
    (constant (F := Ideal) S_ .f32 0x46000000#32)

/-- The mean of the row losses is the specification's loss. -/
theorem meanOf_rows (c : Dev nD) : meanOf (rowsOut m c) = loss (argX m c) (argL m c) := by
  funext i
  have hsum : Host.reduceAdd (F := Ideal) (rowsOut m c) (constant (F := Ideal) S_ .f32 0x00000000#32) reducesTo_S8192x1_S_d0_1 h_S_ i
      = (constant (F := Ideal) S_ .f32 0x00000000#32) (Shape.Idx.first h_S_) + ∑ j : S8192x1.Idx, rowsOut m c j := by
    simp only [Host.reduceAdd, Ideal.hostReduceAdd_def]
    exact Ideal.hostReduceAdd_total reducesTo_S8192x1_S_d0_1 (fun b => b.elim0) (rowsOut m c) _ i
  show Ideal.div (Host.reduceAdd (F := Ideal) (rowsOut m c) (constant (F := Ideal) S_ .f32 0x00000000#32) reducesTo_S8192x1_S_d0_1 h_S_ i)
      (Ideal.ofBits .f32 0x46000000#32) = Ideal.div (∑ p : Fin 8192, rowLoss (argX m c) (argL m c) p) rows
  rw [hsum]
  refine congrArg (Ideal.div · rows) ?_
  show Ideal.ofBits .f32 0x00000000#32 + _ = _
  rw [Ideal.ofBits_zero_f32, zero_add, sum_idx2]
  refine Finset.sum_congr rfl fun p _ => ?_
  rewrite [Fin.sum_univ_one]
  rfl

/-- After the host's part, the result buffer holds the specification's loss. -/
theorem tail_eq (c : Dev nD) (hlab : ∀ p : Fin 8192, (argL m c (ix1 p)).toNat < 32000) :
    Pipeline.afterTail₀ cfgs (dats m) 0 (V0 m) [hostOps1] c main_v5 = loss (argX m c) (argL m c) := by
  refine Eq.trans ?_ (meanOf_rows m c)
  have hW : Pipeline.withArrays (cfgs 0).spec c (V0 m c) (fun w => (dats m 0 c).arrAt w (cfgs 0).N) (Proc.devRef .tc main_v3)
      = rowsOut m c :=
    (Pipeline.withArrays_arr spec0 launch0.win.arr_inj c _ _ 3).trans (final_rows m c hlab)
  unfold Pipeline.afterTail₀
  show StableHlo.after hostOps1 _ (Proc.devRef .tc main_v5) = _
  after_results
  rewrite [hW]
  rfl

/-- THE KERNEL'S RUN, READ: under labels in range, the result is the specification's loss of the arguments, which end unchanged. -/
theorem run (hlab : ∀ (c : Dev nD) (p : Fin 8192), (argL m c (ix1 p)).toNat < 32000) :
    θ_run defs (onTc (τ := τ) (main (F := Ideal))) ⟨m, fun _ => 0, ρ⟩ fun r => ∀ c : Dev nD,
      r.2.mem ((c : Thread nD τ).loc main_v5) = loss (argX m c) (argL m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_eq m c (hlab c)),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Loss

end
-- ==== Proof.ReferenceLoss.lean ====
/-
  The reference's result, read operation by operation, is the specification's loss.

  The reference forms (−(0 + ∑ₚ gₚ) + (0 + ∑ₚ log ((0 + ∑ₖ exp x[p, k]) + ε))) / 8192, where gₚ is the gathered logit of
  row p, guarded by an in-range test of the label. With every label in [0, 32000) the label is non-negative as a signed
  word, so the "negative label" branch is not taken, the in-range test is 1, and the gather reads row p at the column
  the label names (its start index read signed and clamped into [0, 31999], which here is the label itself). With
  every logit a real number, −∑ g + ∑ a = ∑ (a − g), and the sum over the rank-1 index set is the sum over the rows.
-/
import proofs.«428869_j55379308315499_3_alg».proof.Proof.Gen.ReferenceIdeal.Read
import proofs.«428869_j55379308315499_3_alg».proof.Proof.CrossEntropySpec
import Idealize.ShloMosaic.Lib.ReduceAll
import Idealize.ShloMosaic.Lib.StableHlo.Predicate
import Idealize.ShloMosaic.Lib.ValueIdx

noncomputable section

namespace Cert.CrossEntropy.Ref

open Cert.ReferenceIdeal Cert.ReferenceIdeal.Gen Cert.ReferenceIdeal.Read
open Idealize.ShloMosaic Idealize.ShloMosaic.ValueIdx

/-! ## General facts -/

/-- A rank-1 index is its one coordinate. -/
def idxEquiv1 {n : Nat} : (⟨1, ![n]⟩ : Shape).Idx ≃ Fin n where
  toFun j := j 0
  invFun := ix1
  left_inv j := (eq_ix1 j).symm
  right_inv _ := rfl

/-- A sum over a rank-1 index set is the sum over its coordinate. -/
theorem sum_idx1 {M : Type*} [AddCommMonoid M] {n : Nat} (f : Fin n → M) :
    ∑ j : (⟨1, ![n]⟩ : Shape).Idx, f (j 0) = ∑ p : Fin n, f p :=
  Equiv.sum_comp (idxEquiv1 (n := n)) f

/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_one f hf l

/-- A reduction by "and" from the bit 1 of an array of ones is 1 at every result index. -/
theorem reduce_andi_of_all {s t u : Shape} {axes : List (Fin s.rank)} (v : s.Idx → BitVec 1) (init : u.Idx → BitVec 1)
    (h : s.ReducesTo axes t) (hu : 0 < u.numel) (j : t.Idx) (hinit : init (Shape.Idx.first hu) = 1#1)
    (hv : ∀ i, v i = 1#1) : Host.reduce IntOp.andi v init h hu j = 1#1 := by
  rw [Host.reduce_eq_foldl, hinit]
  exact foldl_andi_one v hv _

/-- A word below 32000 is non-negative as a signed word: it is not below the word 0. -/
theorem slt_zero_of_lt {w : BitVec 32} (hw : w.toNat < 32000) : IntOp.cmpi .slt w 0#32 = 0#1 := by
  refine eq_zero_of_ne_one fun h => ?_
  have h1 := IntOp.cmpi_slt.1 h
  have e0 : (0#32 : BitVec 32).toInt = 0 := by decide
  have ew : w.toInt = w.toNat := StableHlo.Predicate.toInt_eq_toNat_of_lt (by omega)
  rw [e0, ew] at h1
  omega

/-- A word below 32000 passes the in-range test 0 ≤ w ≤ 31999 read signed. -/
theorem inRange_of_lt {w : BitVec 32} (hw : w.toNat < 32000) :
    IntOp.andi (IntOp.cmpi .sge w 0#32) (IntOp.cmpi .sle w 31999#32) = 1#1 := by
  have e0 : (0#32 : BitVec 32).toInt = 0 := by decide
  have e1 : (31999#32 : BitVec 32).toInt = 31999 := by decide
  have ew : w.toInt = w.toNat := StableHlo.Predicate.toInt_eq_toNat_of_lt (by omega)
  refine IntOp.andi_eq_one.2 ⟨IntOp.cmpi_sge.2 ?_, IntOp.cmpi_sle.2 ?_⟩
  · rw [e0, ew]; omega
  · rw [e1, ew]; omega

/-! ## The label chain -/

/-- The printed gather's dimension numbers: axis 0 of the operand is a batching axis, axis 1 is collapsed and indexed. -/
abbrev gd : GatherDims S8192x32000 S8192x1x1 S8192x1 := gather_S8192x32000_S8192x1x1_S8192x1_n_1_0_0_1_2_11

section Labels
variable (lab : IVec S8192 32) (hlab : ∀ j : S8192.Idx, (lab j).toNat < 32000)
include hlab

/-- The start-index array holds the labels themselves: the "add 32000 to a negative label" branch is never taken. -/
theorem start_eq (i : S8192x1x1.Idx) :
    val_main_call0_v5 (F := Ideal) lab i = lab (idx_main_v0 (idx_main_call0_v5 i)) := by
  rw [val_main_call0_v5_apply, val_main_call0_v4_apply, val_main_call0_v1_apply, val_main_v0_apply,
    val_main_call0_v0_apply, val_main_call0_c_apply, slt_zero_of_lt (hlab _), select_zero]

/-- The element-wise in-range test is 1 everywhere. -/
theorem inb_elt (i : S8192x1x1.Idx) : val_main_call0_v11 (F := Ideal) lab i = 1#1 := by
  rw [val_main_call0_v11_apply, val_main_call0_v7_apply, val_main_call0_v10_apply, start_eq lab hlab i,
    val_main_call0_v6_apply, val_main_call0_c_2_apply, val_main_call0_v9_apply, val_main_call0_v8_apply,
    val_main_call0_c_1_apply]
  exact inRange_of_lt (hlab _)

/-- Its reduction by "and" over the unit axis is 1 everywhere. -/
theorem inb_one (i : S8192x1.Idx) : val_main_call0_v12 (F := Ideal) lab i = 1#1 := by
  unfold val_main_call0_v12
  exact reduce_andi_of_all _ _ _ _ _ rfl (inb_elt lab hlab)

end Labels

/-! ## The gather read at an index -/

/-- The start-indices index [p, q, 0] of result index (p, q). -/
abbrev startAt (j : S8192x1.Idx) : S8192x1x1.Idx :=
  fun a => match a with
    | ⟨0, _⟩ => ⟨(j 0).val, idx2_lt0 j⟩
    | ⟨1, _⟩ => ⟨(j 1).val, idx2_lt1 j⟩
    | ⟨2, _⟩ => ⟨0, Nat.one_pos⟩

/-- THE GATHER READ: result element (p, q) is the operand at row p (the batching axis carries the row) and at the
    column its start index names, read signed and clamped into [0, 31999] (the collapsed, indexed axis). -/
theorem gather_at {α : Type} (x : S8192x32000.Idx → α) (idx : IVec S8192x1x1 32) (j : S8192x1.Idx) :
    Host.gather gd x idx j = x (ix2 (j 0) (Cert.CrossEntropy.col (idx (startAt j)))) := by
  unfold Host.gather
  congr 1
  funext a
  refine Fin.ext ?_
  match a with
  | ⟨0, _⟩ =>
    show gd.start j idx 0 + gd.batchCoord j 0 + gd.offCoord j 0 = (j 0).val
    rw [GatherDims.start_batching gd j idx 0 (by decide),
      GatherDims.offCoord_eq_zero gd j 0 (fun h => ((GatherDims.mem_sKept gd 0).mp h).2 (by decide))]
    simp only [Nat.add_zero, Nat.zero_add]
    rfl
  | ⟨1, _⟩ =>
    show gd.start j idx 1 + gd.batchCoord j 1 + gd.offCoord j 1 = min (idx (startAt j)).toInt.toNat 31999
    rw [GatherDims.batchCoord_eq_zero gd j 1 (by decide),
      GatherDims.offCoord_eq_zero gd j 1 (fun h => ((GatherDims.mem_sKept gd 1).mp h).1 (by decide))]
    simp only [Nat.add_zero]
    unfold GatherDims.start
    rw [dif_pos (show (1 : Fin S8192x32000.rank) ∈ gd.startIndexMap by decide)]
    have hsi : gd.siIdx j ⟨List.idxOf (1 : Fin S8192x32000.rank) gd.startIndexMap,
        List.idxOf_lt_length_iff.2 (by decide)⟩ = startAt j := by
      funext b; refine Fin.ext ?_
      match b with
      | ⟨0, _⟩ => rfl
      | ⟨1, _⟩ => rfl
      | ⟨2, _⟩ => rfl
    rw [hsi]
    rfl

/-! ## The two per-row terms -/

/-- Row p's logarithm term: log ((0 + ∑ₖ exp x[p, k]) + ε), the zero being the sum's initial value. -/
theorem logsum_row (x : FVec Ideal S8192x32000 .f32) (j : S8192.Idx) :
    val_main_v9 (F := Ideal) x j
      = Ideal.log ((∑ k : Fin 32000, Ideal.exp (x (ix2 (j 0) k))) + Cert.CrossEntropy.eps) := by
  have hidx : ∀ k : Fin 32000, idx_main_v6 j k = ix2 (j 0) k := fun k =>
    funext fun a => Fin.ext (by match a with | ⟨0, _⟩ => rfl | ⟨1, _⟩ => rfl)
  rw [val_main_v9_apply, val_main_v8_apply, val_main_v6_apply, val_main_v7_apply, val_main_cst_1_apply,
    val_main_cst_0_apply]
  simp only [val_main_v5_apply, hidx, Ideal.hostUnary_log_def, Ideal.hostUnary_exp_def, Ideal.addf_def, Ideal.ofBits_def,
    Ideal.ofBits_zero_f32, zero_add]
  rfl

/-- Row p's gathered logit: x[p, l p], the in-range test being 1 and the start index the label. -/
theorem gathered_row (x : FVec Ideal S8192x32000 .f32) (lab : IVec S8192 32)
    (hlab : ∀ j : S8192.Idx, (lab j).toNat < 32000) (j : S8192.Idx) :
    val_main_v2 (F := Ideal) x lab j = x (ix2 (j 0) (Cert.CrossEntropy.col (lab (ix1 (j 0))))) := by
  have h0 : idx_main_v2 j 0 = j 0 := Fin.ext (show (j 0).val / 1 = (j 0).val from Nat.div_one _)
  have hrow : idx_main_v0 (idx_main_call0_v5 (startAt (idx_main_v2 j))) = ix1 (j 0) := by
    funext a
    match a with
    | ⟨0, _⟩ =>
      refine Fin.ext ?_
      show ((((j 0).val / 1) * 1 + 0) * 1 + 0) / 1 = (j 0).val
      omega
  rw [val_main_v2_apply, val_main_v1_apply, inb_one lab hlab, select_one]
  unfold val_main_call0_v13
  rw [gather_at, start_eq lab hlab, hrow, h0]
  rfl

/-! ## The result -/

/-- THE REFERENCE IS THE SPECIFICATION. -/
theorem result_eq (x : FVec Ideal Cert.ReferenceIdeal.S8192x32000 .f32) (lab : IVec Cert.ReferenceIdeal.S8192 32)
    (hlab : ∀ p : Fin 8192, (lab (Idealize.ShloMosaic.ValueIdx.ix1 p)).toNat < 32000)
    (hfin : ∀ i, ∃ r : ℝ, x i = (r : EReal)) :
    Cert.ReferenceIdeal.Read.val_main_v12 (F := Ideal) x lab = Cert.CrossEntropy.loss x lab := by
  have hlab' : ∀ j : S8192.Idx, (lab j).toNat < 32000 := fun j =>
    Eq.mpr (congrArg (fun t => (lab t).toNat < 32000) (eq_ix1 j)) (hlab (j 0))
  funext i
  -- the two sums over the rows, each from the initial value 0
  have hg : val_main_v3 (F := Ideal) x lab i
      = ∑ j : S8192.Idx, x (ix2 (j 0) (Cert.CrossEntropy.col (lab (ix1 (j 0))))) := by
    rw [val_main_v3_apply, val_main_cst_apply]
    simp only [Ideal.ofBits_def, Ideal.ofBits_zero_f32, zero_add]
    exact Finset.sum_congr rfl fun j _ => gathered_row x lab hlab' j
  have ha : val_main_v10 (F := Ideal) x i
      = ∑ j : S8192.Idx, Ideal.log ((∑ k : Fin 32000, Ideal.exp (x (ix2 (j 0) k))) + Cert.CrossEntropy.eps) := by
    rw [val_main_v10_apply, val_main_cst_2_apply]
    simp only [Ideal.ofBits_def, Ideal.ofBits_zero_f32, zero_add]
    exact Finset.sum_congr rfl fun j _ => logsum_row x j
  rw [val_main_v12_apply, val_main_v11_apply, val_main_v4_apply, val_main_cst_3_apply, hg, ha]
  simp only [Ideal.hostDivf_def, Ideal.addf_def, Ideal.hostNegf_def, Ideal.negf_def, Ideal.ofBits_def]
  -- every gathered logit is a real number, so the sign goes inside the sum; then the rows are re-indexed
  have key := Cert.CrossEntropy.neg_sum_add_sum
    (fun j : S8192.Idx => Ideal.log ((∑ k : Fin 32000, Ideal.exp (x (ix2 (j 0) k))) + Cert.CrossEntropy.eps))
    (fun j : S8192.Idx => x (ix2 (j 0) (Cert.CrossEntropy.col (lab (ix1 (j 0))))))
    (fun j => hfin (ix2 (j 0) (Cert.CrossEntropy.col (lab (ix1 (j 0))))))
  exact congrArg (fun s => Ideal.div s Cert.CrossEntropy.rows)
    (key.trans (sum_idx1 (fun p : Fin 8192 => Cert.CrossEntropy.rowLoss x lab p)))

end Cert.CrossEntropy.Ref

end
-- ==== Proof.Precondition.lean ====
/-
  What the printed precondition says of the arguments: every logit is a real number, and every label is a column
  number.

  The precondition is the conjunction of two "for all" tests, each a reduction by "and" to a single bit. The first asks
  |x| < +∞ of every entry; on the extended reals |x| = max x (−x) lies below +∞ exactly when x is neither infinity,
  that is, when x is a real number. The second asks 0 ≤ l and l < 32000 of every label l read as a signed word; a word
  whose signed reading is non-negative lies below 2³¹, where the signed and the unsigned readings agree, so its value
  is below 32000.
-/
import proofs.«428869_j55379308315499_3_alg».proof.Pre_finite_inputs
import proofs.«428869_j55379308315499_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Mathlib.Data.EReal.Basic
import Mathlib.Data.EReal.Operations

noncomputable section

namespace Cert.CrossEntropy.Pre

open Idealize.ShloMosaic Idealize.ShloMosaic.ValueIdx

/-- The rank-0 index set has one element. -/
instance : Subsingleton Cert.Pre_finite_inputs.S_.Idx := ⟨fun a b => funext fun d => d.elim0⟩

/-! ## One entry -/

/-- The f32 word 0x7F800000 denotes +∞. -/
theorem inf_word : Ideal.ofBits .f32 0x7F800000#32 = (⊤ : EReal) := by simp [Ideal.ofBits, Ideal.ieee]

/-- The ordered "less than" comparison gives the bit 1 only when its left side is below its right side. -/
theorem lt_of_cmp_olt {X Y : EReal} (h : Ideal.cmp .olt X Y = 1#1) : X < Y := by
  simpa only [Ideal.cmp, StableHlo.Predicate.ofBool_eq_one_iff, decide_eq_true_eq] using h

/-- An extended real whose absolute value max a (−a) compares below +∞ is a real number: a < +∞ rules out +∞, and
    −a < +∞ rules out −∞, whose negation is +∞. -/
theorem real_of_abs_lt_inf (a : EReal)
    (h : Ideal.cmp .olt (max a (-a)) (Ideal.ofBits .f32 0x7F800000#32) = 1#1) : ∃ r : ℝ, a = (r : EReal) := by
  have hlt : max a (-a) < (⊤ : EReal) := by
    have := lt_of_cmp_olt h
    rwa [inf_word] at this
  have h1 : a ≠ ⊤ := ne_top_of_lt (lt_of_le_of_lt (le_max_left a (-a)) hlt)
  have h2 : -a ≠ ⊤ := ne_top_of_lt (lt_of_le_of_lt (le_max_right a (-a)) hlt)
  have h3 : a ≠ ⊥ := fun e => h2 (by rw [e]; exact EReal.neg_bot)
  exact ⟨a.toReal, (EReal.coe_toReal h1 h3).symm⟩

/-! ## One label -/

/-- A 32-bit word whose signed reading lies in [0, 32000) has its unsigned value below 32000: a non-negative signed
    reading is the unsigned one (the other case would read value − 2³² < 0). -/
theorem toNat_lt_of_signed {w : BitVec 32} (h0 : (0#32 : BitVec 32).toInt ≤ w.toInt)
    (h1 : w.toInt < (32000#32 : BitVec 32).toInt) : w.toNat < 32000 := by
  have e0 : (0#32 : BitVec 32).toInt = 0 := by decide
  have e1 : (32000#32 : BitVec 32).toInt = 32000 := by decide
  rw [e0] at h0
  rw [e1] at h1
  have hw : w.toNat < 2 ^ 32 := w.isLt
  by_cases hc : 2 * w.toNat < 2 ^ 32
  · rw [BitVec.toInt_eq_toNat_cond, if_pos hc] at h1
    omega
  · rw [BitVec.toInt_eq_toNat_cond, if_neg hc] at h0
    omega

/-! ## The two statements -/

/-- Under the precondition every logit is a real number. -/
theorem finite_of_pre [Cert.Pre_finite_inputs.Facts] (x : FVec Ideal Cert.Pre_finite_inputs.S8192x32000 .f32)
    (lab : IVec Cert.Pre_finite_inputs.S8192 32)
    (h : Cert.Pre_finite_inputs.fn (F := Ideal) x lab = fun _ => 1#1) : ∀ i, ∃ r : ℝ, x i = (r : EReal) := by
  intro i
  have h0 := congrFun h ix0
  dsimp only [Cert.Pre_finite_inputs.fn] at h0
  obtain ⟨ha, _⟩ := IntOp.andi_eq_one.1 h0
  have hi := Host.reduce_andi_all _ _ _ _ _ ha i
  exact real_of_abs_lt_inf (x i) hi

/-- Under the precondition every label, as an unsigned value, is below 32000. -/
theorem label_lt_of_pre [Cert.Pre_finite_inputs.Facts] (x : FVec Ideal Cert.Pre_finite_inputs.S8192x32000 .f32)
    (lab : IVec Cert.Pre_finite_inputs.S8192 32)
    (h : Cert.Pre_finite_inputs.fn (F := Ideal) x lab = fun _ => 1#1) :
    ∀ p : Fin 8192, (lab (Idealize.ShloMosaic.ValueIdx.ix1 p)).toNat < 32000 := by
  intro p
  have h0 := congrFun h ix0
  dsimp only [Cert.Pre_finite_inputs.fn] at h0
  obtain ⟨_, hb⟩ := IntOp.andi_eq_one.1 h0
  have hp0 := Host.reduce_andi_all _ _ _ _ _ hb (ix1 p)
  have hp : IntOp.andi (IntOp.cmpi .sge (lab (ix1 p)) 0#32) (IntOp.cmpi .slt (lab (ix1 p)) 32000#32) = 1#1 := hp0
  obtain ⟨hge, hlt⟩ := IntOp.andi_eq_one.1 hp
  exact toNat_lt_of_signed (IntOp.cmpi_sge.1 hge) (IntOp.cmpi_slt.1 hlt)

end Cert.CrossEntropy.Pre

end
-- ==== Proof.lean ====
/-
  Cross-entropy loss with a fused gather: a tiled kernel against its plain reference, over the extended reals.

  For logits x : [8192, 32000], labels l : [8192] in [0, 32000), both programs compute
      ( ∑_p ( log (∑_k exp x[p, k] + ε) − x[p, l p] ) ) / 8192 .
  The kernel keeps, per row, two running sums over ten column blocks — of exp x and of x under the mask "this column is the
  label" — and at the tenth block stores log (first + ε) − second; the host averages the rows. The reference sums exp over
  whole rows, gathers x[p, l p] (its index arithmetic wraps a negative label and fills an out-of-range one, which the
  label range rules out), and forms (−∑ gathered + ∑ log …) / 8192.
  The two agree because sums on the extended reals may be re-grouped, the masked sum has exactly one non-zero term for a
  label in range, and −∑ g + ∑ a = ∑ (a − g) once every gathered g is a real number (the inputs are finite).

  The three frames are the generated ones (the reference's is its run with the result dropped); the idealization rewrote
  nothing, so the kernel and its idealization are the same text.
-/
import proofs.«428869_j55379308315499_3_alg».proof.Defs
import proofs.«428869_j55379308315499_3_alg».proof.Proof.Gen.Kernel
import proofs.«428869_j55379308315499_3_alg».proof.Proof.Gen.Kernel.Skeleton
import proofs.«428869_j55379308315499_3_alg».proof.Proof.Gen.Kernel.Launch
import proofs.«428869_j55379308315499_3_alg».proof.Proof.Gen.Kernel.Points
import proofs.«428869_j55379308315499_3_alg».proof.Proof.Gen.Kernel.Frame
import proofs.«428869_j55379308315499_3_alg».proof.Proof.Gen.KernelIdeal
import proofs.«428869_j55379308315499_3_alg».proof.Proof.Gen.KernelIdeal.Skeleton
import proofs.«428869_j55379308315499_3_alg».proof.Proof.Gen.KernelIdeal.Launch
import proofs.«428869_j55379308315499_3_alg».proof.Proof.Gen.KernelIdeal.Points
import proofs.«428869_j55379308315499_3_alg».proof.Proof.Gen.KernelIdeal.Frame
import proofs.«428869_j55379308315499_3_alg».proof.Proof.Gen.ReferenceIdeal
import proofs.«428869_j55379308315499_3_alg».proof.Proof.Gen.ReferenceIdeal.Run
import proofs.«428869_j55379308315499_3_alg».proof.Proof.Gen.ReferenceIdeal.Read
import proofs.«428869_j55379308315499_3_alg».proof.Proof.Gen.Pre_finite_inputs
import proofs.«428869_j55379308315499_3_alg».proof.Proof.KernelValue
import proofs.«428869_j55379308315499_3_alg».proof.Proof.ReferenceLoss
import proofs.«428869_j55379308315499_3_alg».proof.Proof.Precondition
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's loss of the (agreeing) arguments: the kernel's by its result array and the host's
    mean; the reference's by its operations read one at a time. The precondition gives finite logits and labels in range. -/
theorem algebraic : Cert.algebraic_KernelIdeal_ReferenceIdeal := by
  intro m ρ m' ρ' hpre hagree
  have hfin := fun c : Dev Cert.KernelIdeal.nD => Cert.CrossEntropy.Pre.finite_of_pre _ _ (hpre c)
  have hlab := fun c : Dev Cert.KernelIdeal.nD => Cert.CrossEntropy.Pre.label_lt_of_pre _ _ (hpre c)
  refine ⟨fun c => Cert.CrossEntropy.loss (Cert.KernelIdeal.Loss.argX m c) (Cert.KernelIdeal.Loss.argL m c),
    Cert.KernelIdeal.Loss.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  exact Cert.CrossEntropy.Ref.result_eq _ _ (hlab c) (hfin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
